-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x6 : Shape := ⟨2, ![128, 6]⟩
abbrev S6 : Shape := ⟨1, ![6]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x6 : S_.BroadcastsInDim S128x6 (![] : Fin 0 → Fin S128x6.rank)
  reducesTo_S128x6_S_d0_1 : S128x6.ReducesTo [0, 1] S_
  bcast_S_S6 : S_.BroadcastsInDim S6 (![] : Fin 0 → Fin S6.rank)
  reducesTo_S6_S_d0 : S6.ReducesTo [0] S_

variable [Facts]

def fn_part3 {F : FTy → Type} [FloatOps F] (main_v48 : IVec S_ 1) (main_v49 : FVec F S6 .f32) (main_v50 : FVec F S6 .f32) : IVec S_ 1 :=
  let main_v51 : IVec S6 1 := cmpf .olt main_v49 main_v50
  let main_c_19 : IVec S_ 1 := constantI S_ 1 1#1
  let main_v52 : IVec S_ 1 := (fun x v => Host.reduce IntOp.andi x v reducesTo_S6_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128x6 .f32) (main_arg12 : FVec F S6 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x6 .f32 := Host.absf main_arg11
  let main_cst_16 : FVec F S_ .f32 := constant S_ .f32 0x7F800000#32
  let main_v45 : FVec F S128x6 .f32 := broadcastInDim S128x6 ![] bcast_S_S128x6 main_cst_16
  let main_v46 : IVec S128x6 1 := cmpf .olt main_v44 main_v45
  let main_c_17 : IVec S_ 1 := constantI S_ 1 1#1
  let main_v47 : IVec S_ 1 := (fun x v => Host.reduce IntOp.andi x v reducesTo_S128x6_S_d0_1 h_S_) main_v46 main_c_17
  let main_v48 : IVec S_ 1 := andi main_v43 main_v47
  let main_v49 : FVec F S6 .f32 := Host.absf main_arg12
  let main_cst_18 : FVec F S_ .f32 := constant S_ .f32 0x7F800000#32
  let main_v50 : FVec F S6 .f32 := broadcastInDim S6 ![] bcast_S_S6 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x6 .f32) (main_arg12 : FVec F S6 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x6 .f32) (main_arg12 : FVec F S6 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x6 : Shape := ⟨2, ![128, 6]⟩
abbrev S6 : Shape := ⟨1, ![6]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S5000x128 : Shape := ⟨2, ![5000, 128]⟩
abbrev S1x128 : Shape := ⟨2, ![1, 128]⟩
abbrev S1000x128 : Shape := ⟨2, ![1000, 128]⟩
abbrev S100000x1 : Shape := ⟨2, ![100000, 1]⟩
abbrev S1000x1 : Shape := ⟨2, ![1000, 1]⟩
abbrev S1000x6 : Shape := ⟨2, ![1000, 6]⟩
abbrev S1x6 : Shape := ⟨2, ![1, 6]⟩

abbrev nBuf : Space → Nat
  | .hbm => 64
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x6, .f32⟩
  | .hbm, ⟨12, _⟩ => ⟨S6, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S_, .f32⟩
  | .hbm, ⟨27, _⟩ => ⟨S100000x128, .f32⟩
  | .hbm, ⟨28, _⟩ => ⟨S1600000x1, .i32⟩
  | .hbm, ⟨29, _⟩ => ⟨S100000x128, .f32⟩
  | .hbm, ⟨30, _⟩ => ⟨S100000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S1000x128, .f32⟩
  | .hbm, ⟨47, _⟩ => ⟨S100000x1, .i32⟩
  | .hbm, ⟨48, _⟩ => ⟨S1000x128, .f32⟩
  | .hbm, ⟨49, _⟩ => ⟨S_, .f32⟩
  | .hbm, ⟨50, _⟩ => ⟨S100000x1, .f32⟩
  | .hbm, ⟨51, _⟩ => ⟨S_, .f32⟩
  | .hbm, ⟨52, _⟩ => ⟨S1000x1, .f32⟩
  | .hbm, ⟨53, _⟩ => ⟨S100000x1, .i32⟩
  | .hbm, ⟨54, _⟩ => ⟨S1000x1, .f32⟩
  | .hbm, ⟨55, _⟩ => ⟨S_, .f32⟩
  | .hbm, ⟨56, _⟩ => ⟨S1000x1, .f32⟩
  | .hbm, ⟨57, _⟩ => ⟨S1000x1, .f32⟩
  | .hbm, ⟨58, _⟩ => ⟨S1000x128, .f32⟩
  | .hbm, ⟨59, _⟩ => ⟨S1000x128, .f32⟩
  | .hbm, ⟨60, _⟩ => ⟨S1000x6, .f32⟩
  | .hbm, ⟨61, _⟩ => ⟨S1x6, .f32⟩
  | .hbm, ⟨62, _⟩ => ⟨S1000x6, .f32⟩
  | .hbm, ⟨63, _⟩ => ⟨S1000x6, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S128, .f32⟩
  | .local _ .vmem, ⟨16, _⟩ => ⟨S128x128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_1 : Ref sig .tc := ⟨.hbm, 31, rfl⟩
abbrev main_v15 : Ref sig .tc := ⟨.hbm, 32, rfl⟩
abbrev main_v16 : Ref sig .tc := ⟨.hbm, 33, rfl⟩
abbrev main_c_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_cst_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S1000x128 : S_.BroadcastsInDim S1000x128 (![] : Fin 0 → Fin S1000x128.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S1000x1 : S_.BroadcastsInDim S1000x1 (![] : Fin 0 → Fin S1000x1.rank)
  bcast_S1000x1_S1000x128_0_1 : S1000x1.BroadcastsInDim S1000x128 (![0, 1] : Fin 2 → Fin S1000x128.rank)
  bcast_S6_S1x6_1 : S6.BroadcastsInDim S1x6 (![1] : Fin 1 → Fin S1x6.rank)
  bcast_S1x6_S1000x6_0_1 : S1x6.BroadcastsInDim S1000x6 (![0, 1] : Fin 2 → Fin S1000x6.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S1000x128_S100000x1_S100000x128_1_0_0_1_wf : ScatterDims.WF S1000x128 S100000x1 S100000x128 [1] [0] [0] 1
  scatter_S1000x1_S100000x1_S100000x1_1_0_0_1_wf : ScatterDims.WF S1000x1 S100000x1 S100000x1 [1] [0] [0] 1
  dot_S1000x128_S128x6_S1000x6_1_0_0_1_n_n_wf : DotDims.WF S1000x128 S128x6 S1000x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S1000x128_S100000x1_S100000x128_1_0_0_1 : ScatterDims S1000x128 S100000x1 S100000x128 where
  updateWindowDims := [1]
  insertedWindowDims := [0]
  scatterDimsToOperandDims := [0]
  indexVectorDim := 1
  wf := scatter_S1000x128_S100000x1_S100000x128_1_0_0_1_wf
def scatter_S1000x1_S100000x1_S100000x1_1_0_0_1 : ScatterDims S1000x1 S100000x1 S100000x1 where
  updateWindowDims := [1]
  insertedWindowDims := [0]
  scatterDimsToOperandDims := [0]
  indexVectorDim := 1
  wf := scatter_S1000x1_S100000x1_S100000x1_1_0_0_1_wf
def dot_S1000x128_S128x6_S1000x6_1_0_0_1_n_n : DotDims S1000x128 S128x6 S1000x6 where
  lhsContracting := [1]
  rhsContracting := [0]
  lhsNonContracting := [0]
  rhsNonContracting := [1]
  lhsBatch := []
  rhsBatch := []
  wf := dot_S1000x128_S128x6_S1000x6_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v14) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x6 : Shape := ⟨2, ![128, 6]⟩
abbrev S6 : Shape := ⟨1, ![6]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S1000x128 : Shape := ⟨2, ![1000, 128]⟩
abbrev S100000x1 : Shape := ⟨2, ![100000, 1]⟩
abbrev S1000x1 : Shape := ⟨2, ![1000, 1]⟩
abbrev S1000x6 : Shape := ⟨2, ![1000, 6]⟩
abbrev S1x6 : Shape := ⟨2, ![1, 6]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x6, .f32⟩
  | .hbm, ⟨12, _⟩ => ⟨S6, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S_, .f32⟩
  | .hbm, ⟨27, _⟩ => ⟨S100000x128, .f32⟩
  | .hbm, ⟨28, _⟩ => ⟨S1600000x1, .i32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S1x128, .f32⟩
  | .hbm, ⟨33, _⟩ => ⟨S100000x128, .f32⟩
  | .hbm, ⟨34, _⟩ => ⟨S100000x128, .f32⟩
  | .hbm, ⟨35, _⟩ => ⟨S_, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S100000x128, .f32⟩
  | .hbm, ⟨63, _⟩ => ⟨S_, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S1000x128, .f32⟩
  | .hbm, ⟨72, _⟩ => ⟨S100000x1, .i32⟩
  | .hbm, ⟨73, _⟩ => ⟨S1000x128, .f32⟩
  | .hbm, ⟨74, _⟩ => ⟨S_, .f32⟩
  | .hbm, ⟨75, _⟩ => ⟨S100000x1, .f32⟩
  | .hbm, ⟨76, _⟩ => ⟨S_, .f32⟩
  | .hbm, ⟨77, _⟩ => ⟨S1000x1, .f32⟩
  | .hbm, ⟨78, _⟩ => ⟨S100000x1, .i32⟩
  | .hbm, ⟨79, _⟩ => ⟨S1000x1, .f32⟩
  | .hbm, ⟨80, _⟩ => ⟨S_, .f32⟩
  | .hbm, ⟨81, _⟩ => ⟨S1000x1, .f32⟩
  | .hbm, ⟨82, _⟩ => ⟨S1000x1, .f32⟩
  | .hbm, ⟨83, _⟩ => ⟨S1000x128, .f32⟩
  | .hbm, ⟨84, _⟩ => ⟨S1000x128, .f32⟩
  | .hbm, ⟨85, _⟩ => ⟨S1000x6, .f32⟩
  | .hbm, ⟨86, _⟩ => ⟨S1x6, .f32⟩
  | .hbm, ⟨87, _⟩ => ⟨S1000x6, .f32⟩
  | .hbm, ⟨88, _⟩ => ⟨S1000x6, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_c_3 : Ref sig .tc := ⟨.hbm, 45, rfl⟩
abbrev main_v27 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_7 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_8 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1000x128 : S_.BroadcastsInDim S1000x128 (![] : Fin 0 → Fin S1000x128.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S1000x1 : S_.BroadcastsInDim S1000x1 (![] : Fin 0 → Fin S1000x1.rank)
  bcast_S1000x1_S1000x128_0_1 : S1000x1.BroadcastsInDim S1000x128 (![0, 1] : Fin 2 → Fin S1000x128.rank)
  bcast_S6_S1x6_1 : S6.BroadcastsInDim S1x6 (![1] : Fin 1 → Fin S1x6.rank)
  bcast_S1x6_S1000x6_0_1 : S1x6.BroadcastsInDim S1000x6 (![0, 1] : Fin 2 → Fin S1000x6.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S1000x128_S100000x1_S100000x128_1_0_0_1_wf : ScatterDims.WF S1000x128 S100000x1 S100000x128 [1] [0] [0] 1
  scatter_S1000x1_S100000x1_S100000x1_1_0_0_1_wf : ScatterDims.WF S1000x1 S100000x1 S100000x1 [1] [0] [0] 1
  dot_S1000x128_S128x6_S1000x6_1_0_0_1_n_n_wf : DotDims.WF S1000x128 S128x6 S1000x6 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S1000x128_S100000x1_S100000x128_1_0_0_1 : ScatterDims S1000x128 S100000x1 S100000x128 where
  updateWindowDims := [1]
  insertedWindowDims := [0]
  scatterDimsToOperandDims := [0]
  indexVectorDim := 1
  wf := scatter_S1000x128_S100000x1_S100000x128_1_0_0_1_wf
def scatter_S1000x1_S100000x1_S100000x1_1_0_0_1 : ScatterDims S1000x1 S100000x1 S100000x1 where
  updateWindowDims := [1]
  insertedWindowDims := [0]
  scatterDimsToOperandDims := [0]
  indexVectorDim := 1
  wf := scatter_S1000x1_S100000x1_S100000x1_1_0_0_1_wf
def dot_S1000x128_S128x6_S1000x6_1_0_0_1_n_n : DotDims S1000x128 S128x6 S1000x6 where
  lhsContracting := [1]
  rhsContracting := [0]
  lhsNonContracting := [0]
  rhsNonContracting := [1]
  lhsBatch := []
  rhsBatch := []
  wf := dot_S1000x128_S128x6_S1000x6_1_0_0_1_n_n_wf

class Facts : Prop extends Facts₀ where

variable [Facts]
-- ==== Proof.GinSpec.lean ====
/-
  One GIN layer's update, read entry by entry on the extended reals.

  A node's new feature vector is a two-layer perceptron of (the sum of its in-neighbours' features) + (its own
  features): hidden unit j of node r is max(Σₖ (agg[r,k] + x[r,k]) · Wa[k,j] + ba[j], 0), and output column q is
  Σⱼ hidden[r,j] · Wb[j,q] + bb[q]. The entry (r, q) depends on row r of `x` and of `agg` only, which is what lets a
  block of rows be computed apart from the others. Stated for any number of rows.
-/
import Idealize.ShloMosaic.PureOps.Ideal
import Idealize.ShloMosaic.Lib.ValueIdx

noncomputable section

open scoped BigOperators

namespace Cert.GinSpec

open Idealize.ShloMosaic Idealize.ShloMosaic.ValueIdx

variable {n : Nat}

/-- Hidden unit `j` of node `r`: the rectified affine image of the node's aggregated-plus-own features. -/
def hidden (x agg : FVec Ideal ⟨2, ![n, 128]⟩ .f32) (Wa : FVec Ideal ⟨2, ![128, 128]⟩ .f32) (ba : FVec Ideal ⟨1, ![128]⟩ .f32)
    (r : Fin n) (j : Fin 128) : EReal :=
  max ((∑ k : Fin 128, (agg (ix2 r k) + x (ix2 r k)) * Wa (ix2 k j)) + ba (ix1 j)) 0

/-- Output column `q` of node `r`: the second affine map of the hidden units (no rectifier). -/
def mlp (x agg : FVec Ideal ⟨2, ![n, 128]⟩ .f32) (Wa : FVec Ideal ⟨2, ![128, 128]⟩ .f32) (ba : FVec Ideal ⟨1, ![128]⟩ .f32)
    (Wb : FVec Ideal ⟨2, ![128, 128]⟩ .f32) (bb : FVec Ideal ⟨1, ![128]⟩ .f32) (r : Fin n) (q : Fin 128) : EReal :=
  (∑ j : Fin 128, hidden x agg Wa ba r j * Wb (ix2 j q)) + bb (ix1 q)

/-- The same with the outer rectifier of the first layer. -/
def mlpRelu (x agg : FVec Ideal ⟨2, ![n, 128]⟩ .f32) (Wa : FVec Ideal ⟨2, ![128, 128]⟩ .f32) (ba : FVec Ideal ⟨1, ![128]⟩ .f32)
    (Wb : FVec Ideal ⟨2, ![128, 128]⟩ .f32) (bb : FVec Ideal ⟨1, ![128]⟩ .f32) (r : Fin n) (q : Fin 128) : EReal :=
  max (mlp x agg Wa ba Wb bb r q) 0

/-- The layer as a whole array: entry `i` is the perceptron at row `i 0`, column `i 1`. -/
def layer (x agg : FVec Ideal ⟨2, ![n, 128]⟩ .f32) (Wa : FVec Ideal ⟨2, ![128, 128]⟩ .f32) (ba : FVec Ideal ⟨1, ![128]⟩ .f32)
    (Wb : FVec Ideal ⟨2, ![128, 128]⟩ .f32) (bb : FVec Ideal ⟨1, ![128]⟩ .f32) : FVec Ideal ⟨2, ![n, 128]⟩ .f32 :=
  fun i => mlp x agg Wa ba Wb bb (i 0) (i 1)

def layerRelu (x agg : FVec Ideal ⟨2, ![n, 128]⟩ .f32) (Wa : FVec Ideal ⟨2, ![128, 128]⟩ .f32) (ba : FVec Ideal ⟨1, ![128]⟩ .f32)
    (Wb : FVec Ideal ⟨2, ![128, 128]⟩ .f32) (bb : FVec Ideal ⟨1, ![128]⟩ .f32) : FVec Ideal ⟨2, ![n, 128]⟩ .f32 :=
  fun i => mlpRelu x agg Wa ba Wb bb (i 0) (i 1)

variable {n' : Nat}

/-- Row locality: the hidden units of a node are the same in any two arrays that agree on that node's row. -/
theorem hidden_congr_rows (x agg : FVec Ideal ⟨2, ![n, 128]⟩ .f32) (x' agg' : FVec Ideal ⟨2, ![n', 128]⟩ .f32)
    (Wa : FVec Ideal ⟨2, ![128, 128]⟩ .f32) (ba : FVec Ideal ⟨1, ![128]⟩ .f32) (r : Fin n) (r' : Fin n')
    (hx : ∀ k : Fin 128, x (ix2 r k) = x' (ix2 r' k)) (hagg : ∀ k : Fin 128, agg (ix2 r k) = agg' (ix2 r' k)) (j : Fin 128) :
    hidden x agg Wa ba r j = hidden x' agg' Wa ba r' j := by
  unfold hidden
  refine congrArg (fun s => max (s + ba (ix1 j)) 0) (Finset.sum_congr rfl fun k _ => ?_)
  rw [hx k, hagg k]

theorem mlp_congr_rows (x agg : FVec Ideal ⟨2, ![n, 128]⟩ .f32) (x' agg' : FVec Ideal ⟨2, ![n', 128]⟩ .f32)
    (Wa : FVec Ideal ⟨2, ![128, 128]⟩ .f32) (ba : FVec Ideal ⟨1, ![128]⟩ .f32) (Wb : FVec Ideal ⟨2, ![128, 128]⟩ .f32)
    (bb : FVec Ideal ⟨1, ![128]⟩ .f32) (r : Fin n) (r' : Fin n')
    (hx : ∀ k : Fin 128, x (ix2 r k) = x' (ix2 r' k)) (hagg : ∀ k : Fin 128, agg (ix2 r k) = agg' (ix2 r' k)) (q : Fin 128) :
    mlp x agg Wa ba Wb bb r q = mlp x' agg' Wa ba Wb bb r' q := by
  unfold mlp
  refine congrArg (fun s => s + bb (ix1 q)) (Finset.sum_congr rfl fun j _ => ?_)
  rw [hidden_congr_rows x agg x' agg' Wa ba r r' hx hagg j]

theorem mlpRelu_congr_rows (x agg : FVec Ideal ⟨2, ![n, 128]⟩ .f32) (x' agg' : FVec Ideal ⟨2, ![n', 128]⟩ .f32)
    (Wa : FVec Ideal ⟨2, ![128, 128]⟩ .f32) (ba : FVec Ideal ⟨1, ![128]⟩ .f32) (Wb : FVec Ideal ⟨2, ![128, 128]⟩ .f32)
    (bb : FVec Ideal ⟨1, ![128]⟩ .f32) (r : Fin n) (r' : Fin n')
    (hx : ∀ k : Fin 128, x (ix2 r k) = x' (ix2 r' k)) (hagg : ∀ k : Fin 128, agg (ix2 r k) = agg' (ix2 r' k)) (q : Fin 128) :
    mlpRelu x agg Wa ba Wb bb r q = mlpRelu x' agg' Wa ba Wb bb r' q := by
  unfold mlpRelu
  rw [mlp_congr_rows x agg x' agg' Wa ba Wb bb r r' hx hagg q]

end Cert.GinSpec

end
-- ==== Proof.LibPlainDot.lean ====
/-
  A plain matrix product read at an index, on the extended reals.

  For the dimension numbers of an M×K by K×N product (contract the left operand's axis 1 with the right operand's axis 0,
  no batch axis) the vector unit's product into a zero accumulator, and the host's `dot_general`, both hold at (p, q)
  the sum over k of L[p,k] · R[k,q]. When the right operand is a stored [N, K] matrix transposed, the entry is the
  sum over k of L[p,k] · W[q,k]. Generic in the three extents.
-/
import Idealize.ShloMosaic.PureOps.Ideal.Laws
import Idealize.ShloMosaic.Lib.ValueIdx
import Idealize.ShloMosaic.Lib.ValueLayout

noncomputable section

open scoped BigOperators

namespace Cert.PlainDot

open Idealize.ShloMosaic Idealize.ShloMosaic.ValueIdx

variable {M K N : Nat}

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem lhs1 (i : (⟨2, ![M, N]⟩ : Shape).Idx) (q : (DotDims.plain M K N).contr.Idx) :
    ((DotDims.plain M K N).lhsIdx i q 1).val = (q ⟨0, Nat.lt_of_lt_of_eq Nat.one_pos (Eq.symm (rfl : (DotDims.plain M K N).contr.rank = 1))⟩).val :=
  (DotDims.plain M K N).lhsIdx_val_of_single rfl i q

theorem rhs0 (i : (⟨2, ![M, N]⟩ : Shape).Idx) (q : (DotDims.plain M K N).contr.Idx) :
    ((DotDims.plain M K N).rhsIdx i q 0).val = (q ⟨0, Nat.lt_of_lt_of_eq Nat.one_pos (Eq.symm (rfl : (DotDims.plain M K N).contr.rank = 1))⟩).val :=
  (DotDims.plain M K N).rhsIdx_val_of_single rfl i q

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum re-indexed by its one coordinate. -/
theorem sum_contr {φ₁ φ₂ : FTy} (L : FVec Ideal ⟨2, ![M, K]⟩ φ₁) (R : FVec Ideal ⟨2, ![K, N]⟩ φ₂) (p : Fin M) (q : Fin N) :
    (∑ k : (DotDims.plain M K N).contr.Idx, L ((DotDims.plain M K N).lhsIdx (ix2 p q) k) * R ((DotDims.plain M K N).rhsIdx (ix2 p q) k))
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs0 _ _
      | ⟨1, _⟩ => exact (lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs0 _ _).trans hk
      | ⟨1, _⟩ => exact rhs1 _ _)
  rw [el, er]

/-- The vector unit's product into the zero accumulator, at (p, q). -/
theorem matmul_zero_apply {φ₁ φ₂ : FTy} (prec : Option ContractPrecision) (L : FVec Ideal ⟨2, ![M, K]⟩ φ₁)
    (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply]
  exact sum_contr L R p q

/-- The host's product, at (p, q). -/
theorem dotGeneral_apply {φ₁ φ₂ : FTy} (prec : Option ContractPrecision) (sched : HostSchedule) (L : FVec Ideal ⟨2, ![M, K]⟩ φ₁)
    (R : FVec Ideal ⟨2, ![K, N]⟩ φ₂) (p : Fin M) (q : Fin N) :
    FloatOps.dotGeneral (DotDims.plain M K N) prec sched L R (ix2 p q) = ∑ k : Fin K, L (ix2 p k) * R (ix2 k q) := by
  rw [Ideal.dotGeneral_apply]
  exact sum_contr L R p q

/-- Against a stored [N, K] matrix transposed: the sum runs over the stored matrix's second coordinate. -/
theorem matmul_zero_transposed_apply {φ₁ φ₂ : FTy} (prec : Option ContractPrecision) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.matmul (DotDims.plain M K N) prec L (transpose ⟨2, ![K, N]⟩ [1, 0] W h) (constant ⟨2, ![M, N]⟩ .f32 0x00000000#32) (ix2 p q)
      = ∑ k : Fin K, L (ix2 p k) * W (ix2 q k) := by
  rw [matmul_zero_apply]
  refine Finset.sum_congr rfl fun k _ => ?_
  rw [transpose_ix2_apply]

theorem dotGeneral_transposed_apply {φ₁ φ₂ : FTy} (prec : Option ContractPrecision) (sched : HostSchedule) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.dotGeneral (DotDims.plain M K N) prec sched L (transpose ⟨2, ![K, N]⟩ [1, 0] W h) (ix2 p q)
      = ∑ k : Fin K, L (ix2 p k) * W (ix2 q k) := by
  rw [dotGeneral_apply]
  refine Finset.sum_congr rfl fun k _ => ?_
  rw [transpose_ix2_apply]

end Cert.PlainDot

end
-- ==== Proof.LibRowBias.lean ====
/-
  A bias row read at an index.

  A vector [n] laid out as a one-row matrix [1, n] holds at (0, j) the vector's entry j; and a one-row matrix [1, n]
  broadcast down M rows holds at (p, j) its entry (0, j). The host's form of the two together — a vector [n] broadcast to
  [1, n] and then to [M, n] — holds at (p, j) the vector's entry j. A scalar broadcast to any shape holds the scalar
  everywhere. Generic in the extents and the element type.
-/
import Idealize.ShloMosaic.Lib.Pipeline.Value
import Idealize.ShloMosaic.Lib.ValueIdx

noncomputable section

namespace Cert.RowBias

open Idealize.ShloMosaic Idealize.ShloMosaic.ValueIdx

variable {α : Type} {M n : Nat}

/-- A one-row matrix broadcast down the rows: every row is the one row. -/
theorem rows_apply (v : (⟨2, ![1, n]⟩ : Shape).Idx → α) (hb : (⟨2, ![1, n]⟩ : Shape).Broadcasts ⟨2, ![M, n]⟩) (p : Fin M) (j : Fin n) :
    broadcastTo ⟨2, ![M, n]⟩ v hb (ix2 p j) = v (ix2 (0 : Fin 1) j) :=
  broadcastTo_apply v hb (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega

/-- A vector reshaped to a one-row matrix: the row is the vector. -/
theorem ofVec_apply (b : (⟨1, ![n]⟩ : Shape).Idx → α) (h : (⟨1, ![n]⟩ : Shape).ShapeCasts ⟨2, ![1, n]⟩) (j : Fin n) :
    shapeCast ⟨2, ![1, n]⟩ b h (ix2 (0 : Fin 1) j) = b (ix1 j) :=
  shapeCast_apply b h (ix2 (0 : Fin 1) j) (ix1 j) (by
    rw [Shape.rowMajor_val_one, Shape.rowMajor_val_two]
    show j.val = 0 * n + j.val
    omega)

/-- The host's bias: a vector broadcast to one row and then down the rows. -/
theorem hostRows_apply (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![M, n]⟩ ![0, 1]) (p : Fin M) (j : Fin n) :
    broadcastInDim ⟨2, ![M, n]⟩ ![0, 1] h2 (broadcastInDim ⟨2, ![1, n]⟩ ![1] h1 b) (ix2 p j) = b (ix1 j) :=
  (broadcastInDim_apply ![0, 1] h2 _ (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega).trans
  (broadcastInDim_apply ![1] h1 b (ix2 (0 : Fin 1) j) (ix1 j) fun a => match a with
    | ⟨0, _⟩ => by
        show j.val = if n = 1 then 0 else j.val
        have := j.isLt
        split <;> omega)

/-- A scalar broadcast to a shape holds the scalar at every index. -/
theorem splat_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

end Cert.RowBias

end
-- ==== Proof.BodyValue.lean ====
/-
  The two kernel bodies read at an entry of their output block, on the extended reals.

  A body loads a block of 5000 node rows of the features `x` and of the neighbour sums `agg`, the two weight matrices
  and the two bias vectors, and stores (agg + x) · Wa + ba, rectified, times Wb, plus bb (the first call rectifies once
  more). The narrowing of the matrix product's operands to sixteen bits is the identity on the extended reals, and the
  product into a zero accumulator is the plain sum over the contracted axis, so entry (p, q) of the stored block is the
  layer's perceptron at row p, column q of the loaded blocks.
-/
import proofs.«130487_j22316650070138_1_alg».proof.Proof.Gen.KernelIdeal.Skeleton
import proofs.«130487_j22316650070138_1_alg».proof.Proof.GinSpec
import proofs.«130487_j22316650070138_1_alg».proof.Proof.LibPlainDot
import proofs.«130487_j22316650070138_1_alg».proof.Proof.LibRowBias

noncomputable section

open scoped BigOperators

namespace Cert.KernelIdeal.BodyValue

open Cert.KernelIdeal Cert.KernelIdeal.Gen Idealize.ShloMosaic Idealize.ShloMosaic.ValueIdx

/-- The printed dimension numbers of the body's products are those of a plain 5000×128 by 128×128 product. -/
theorem dot_eq_plain : dot_S5000x128_S128x128_S5000x128_1_0_0_1_n_n = DotDims.plain 5000 128 128 := rfl

/-- One affine map of the body at an entry: the product into the zero accumulator plus the bias row. -/
theorem dense_apply {φ ψ : FTy} (h : FVec Ideal S5000x128 φ) (W : FVec Ideal S128x128 ψ) (b : Vec Ideal S128 .f32)
    (p : Fin 5000) (q : Fin 128) :
    addf (matmul dot_S5000x128_S128x128_S5000x128_1_0_0_1_n_n none h W (constant S5000x128 .f32 0x00000000#32))
        (broadcastTo S5000x128 (shapeCast S1x128 b shapeCasts_S128_S1x128) broadcasts_S1x128_S5000x128) (ix2 p q)
      = (∑ k : Fin 128, h (ix2 p k) * W (ix2 k q)) + b (ix1 q) := by
  rw [addf_apply, dot_eq_plain]
  show FloatOps.matmul (DotDims.plain 5000 128 128) none h W (constant ⟨2, ![5000, 128]⟩ .f32 0x00000000#32) (ix2 p q)
      + broadcastTo ⟨2, ![5000, 128]⟩ (shapeCast ⟨2, ![1, 128]⟩ b shapeCasts_S128_S1x128) broadcasts_S1x128_S5000x128 (ix2 p q) = _
  rw [Cert.PlainDot.matmul_zero_apply, Cert.RowBias.rows_apply, Cert.RowBias.ofVec_apply]

/-- The rectifier's zero splat denotes zero. -/
theorem zero_splat (i : S5000x128.Idx) : broadcast S5000x128 (Scalar.ofBits (F := Ideal) .f32 0x00000000#32) i = 0 :=
  Ideal.ofBits_zero_f32

/-- The first call's stored block at (p, q). -/
theorem pay0_apply (aggb xb : Vec Ideal S5000x128 .f32) (Wa : Vec Ideal S128x128 .f32) (ba : Vec Ideal S128 .f32)
    (Wb : Vec Ideal S128x128 .f32) (bb : Vec Ideal S128 .f32) (p : Fin 5000) (q : Fin 128) :
    k0_pay1 (F := Ideal) aggb xb Wa ba Wb bb (ix2 p q) = Cert.GinSpec.mlpRelu xb aggb Wa ba Wb bb p q := by
  unfold k0_pay1 Cert.GinSpec.mlpRelu Cert.GinSpec.mlp Cert.GinSpec.hidden
  simp only [truncf_apply, maximumf_apply, dense_apply, broadcast_apply]
  simp only [addf_apply, shapeCast_self, Ideal.ofBits_def, Ideal.ofBits_zero_f32]

/-- The second call's stored block at (p, q): the same without the outer rectifier. -/
theorem pay1_apply (aggb xb : Vec Ideal S5000x128 .f32) (Wa : Vec Ideal S128x128 .f32) (ba : Vec Ideal S128 .f32)
    (Wb : Vec Ideal S128x128 .f32) (bb : Vec Ideal S128 .f32) (p : Fin 5000) (q : Fin 128) :
    k1_pay1 (F := Ideal) aggb xb Wa ba Wb bb (ix2 p q) = Cert.GinSpec.mlp xb aggb Wa ba Wb bb p q := by
  unfold k1_pay1 Cert.GinSpec.mlp Cert.GinSpec.hidden
  simp only [truncf_apply, maximumf_apply, dense_apply, broadcast_apply]
  simp only [addf_apply, shapeCast_self, Ideal.ofBits_def, Ideal.ofBits_zero_f32]

end Cert.KernelIdeal.BodyValue

end
-- ==== Proof.RegionValue0.lean ====
/-
  What pallas_call 0 leaves in its result array: one GIN layer's perceptron of the arrays it is entered with.

  The call's grid has twenty points. Point t stages rows 5000·t … 5000·t + 4999 of the features and of the neighbour
  sums, the two weight matrices and bias vectors whole, and writes back rows 5000·t … 5000·t + 4999 of the result. A
  stored entry depends on its own row of the two staged blocks only, so block t of the result is block t of the layer's
  whole-array function of the entry arrays; the twenty blocks tile the 100000 rows, so the array ends holding that
  function. Stated at arbitrary entry contents, which the run supplies.
-/
import proofs.«130487_j22316650070138_1_alg».proof.Proof.Gen.KernelIdeal.Frame
import proofs.«130487_j22316650070138_1_alg».proof.Proof.BodyValue
import Idealize.ShloMosaic.Lib.Pipeline.Value

set_option maxRecDepth 16384

noncomputable section

namespace Cert.KernelIdeal.RegionValue0

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: the three row-blocked windows sit at block (t, 0), the four whole
    operands at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 ∧ t.val ≤ 19 :=
  (by decide +kernel : ∀ t : Fin grid0.N, _)

/-! ## The staged blocks, read off the entry arrays -/

/-- The feature block at point `t` is rows 5000·t … of the feature array. -/
theorem blk_x (c : Dev nD) (t : Fin cfg0.N) (y : S5000x128.Idx) (i : S100000x128.Idx)
    (h0 : (i 0).val = t.val * 5000 + (y 0).val) (h1 : (i 1).val = (y 1).val) :
    (iblk0 V c 0 t : Vec Ideal S5000x128 .f32) y = (V c main_arg0 : S100000x128.Idx → Elt Ideal .f32) i := by
  obtain ⟨e0, e1, -⟩ := idx_facts t
  unfold iblk0
  rw [View.read_apply]
  show V c main_arg0 _ = V c main_arg0 i
  refine congrArg (V c main_arg0) (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The neighbour-sum block at point `t` is rows 5000·t … of the neighbour-sum array. -/
theorem blk_agg (c : Dev nD) (t : Fin cfg0.N) (y : S5000x128.Idx) (i : S100000x128.Idx)
    (h0 : (i 0).val = t.val * 5000 + (y 0).val) (h1 : (i 1).val = (y 1).val) :
    (iblk0 V c 1 t : Vec Ideal S5000x128 .f32) y = (V c main_v13 : S100000x128.Idx → Elt Ideal .f32) i := by
  obtain ⟨-, -, e0, e1, -⟩ := idx_facts t
  unfold iblk0
  rw [View.read_apply]
  show V c main_v13 _ = V c main_v13 i
  refine congrArg (V c main_v13) (funext fun a => Fin.ext ?_)
  match a with
  | ⟨0, _⟩ => show win0_1.index t (0 : Fin 2) * 5000 + 1 * (y 0).val = (i 0).val; rw [e0, h0]; omega
  | ⟨1, _⟩ => show win0_1.index t (1 : Fin 2) * 128 + 1 * (y 1).val = (i 1).val; rw [e1, h1]; omega

/-- The first weight matrix is staged whole. -/
theorem blk_Wa (c : Dev nD) (t : Fin cfg0.N) :
    (iblk0 V c 2 t : Vec Ideal S128x128 .f32) = (V c main_arg3 : S128x128.Idx → Elt Ideal .f32) := by
  obtain ⟨-, -, -, -, e0, e1, -⟩ := idx_facts t
  unfold iblk0
  funext y
  rw [View.read_apply]
  show V c main_arg3 _ = V c main_arg3 y
  refine congrArg (V c main_arg3) (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The first bias vector is staged whole. -/
theorem blk_ba (c : Dev nD) (t : Fin cfg0.N) :
    (iblk0 V c 3 t : Vec Ideal S128 .f32) = (V c main_arg4 : S128.Idx → Elt Ideal .f32) := by
  obtain ⟨-, -, -, -, -, -, e0, -⟩ := idx_facts t
  unfold iblk0
  funext y
  rw [View.read_apply]
  show V c main_arg4 _ = V c main_arg4 y
  refine congrArg (V c main_arg4) (funext fun a => Fin.ext ?_)
  match a with
  | ⟨0, _⟩ => show win0_3.index t (0 : Fin 1) * 128 + 1 * (y 0).val = (y 0).val; rw [e0]; omega

/-- The second weight matrix is staged whole. -/
theorem blk_Wb (c : Dev nD) (t : Fin cfg0.N) :
    (iblk0 V c 4 t : Vec Ideal S128x128 .f32) = (V c main_arg5 : S128x128.Idx → Elt Ideal .f32) := by
  obtain ⟨-, -, -, -, -, -, -, e0, e1, -⟩ := idx_facts t
  unfold iblk0
  funext y
  rw [View.read_apply]
  show V c main_arg5 _ = V c main_arg5 y
  refine congrArg (V c main_arg5) (funext fun a => Fin.ext ?_)
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- The second bias vector is staged whole. -/
theorem blk_bb (c : Dev nD) (t : Fin cfg0.N) :
    (iblk0 V c 5 t : Vec Ideal S128 .f32) = (V c main_arg6 : S128.Idx → Elt Ideal .f32) := by
  obtain ⟨-, -, -, -, -, -, -, -, -, e0, -⟩ := idx_facts t
  unfold iblk0
  funext y
  rw [View.read_apply]
  show V c main_arg6 _ = V c main_arg6 y
  refine congrArg (V c main_arg6) (funext fun a => Fin.ext ?_)
  match a with
  | ⟨0, _⟩ => show win0_5.index t (0 : Fin 1) * 128 + 1 * (y 0).val = (y 0).val; rw [e0]; omega

/-! ## One stored block is a block of the layer's whole-array function -/

/-- Over plain arrays: a stored entry of the block whose rows are rows `5000·tv …` of the arrays is the layer at the
    corresponding entry of the arrays (the entry reads its own row only). -/
theorem block_value (X AGG : FVec Ideal ⟨2, ![100000, 128]⟩ .f32) (Wa : FVec Ideal ⟨2, ![128, 128]⟩ .f32)
    (ba : FVec Ideal ⟨1, ![128]⟩ .f32) (Wb : FVec Ideal ⟨2, ![128, 128]⟩ .f32) (bb : FVec Ideal ⟨1, ![128]⟩ .f32)
    (xb aggb : Vec Ideal S5000x128 .f32) (waB : Vec Ideal S128x128 .f32) (baB : Vec Ideal S128 .f32)
    (wbB : Vec Ideal S128x128 .f32) (bbB : Vec Ideal S128 .f32) (tv : Nat)
    (hx : ∀ (y : S5000x128.Idx) (i : S100000x128.Idx), (i 0).val = tv * 5000 + (y 0).val → (i 1).val = (y 1).val → xb y = X i)
    (hagg : ∀ (y : S5000x128.Idx) (i : S100000x128.Idx), (i 0).val = tv * 5000 + (y 0).val → (i 1).val = (y 1).val → aggb y = AGG i)
    (hWa : waB = Wa) (hba : baB = ba) (hWb : wbB = Wb) (hbb : bbB = bb)
    (j : S5000x128.Idx) (i : S100000x128.Idx) (hi0 : (i 0).val = tv * 5000 + (j 0).val) (hi1 : (i 1).val = (j 1).val) :
    k0_pay1 (F := Ideal) aggb xb waB baB wbB bbB j = Cert.GinSpec.layerRelu X AGG Wa ba Wb bb i := by
  subst hWa hba hWb hbb
  obtain ⟨p, q, rfl⟩ : ∃ (p : Fin 5000) (q : Fin 128), j = ix2 p q := ⟨j 0, j 1, eq_ix2 j⟩
  obtain ⟨r, s, rfl⟩ : ∃ (r : Fin 100000) (s : Fin 128), i = ix2 r s := ⟨i 0, i 1, eq_ix2 i⟩
  have hs : s = q := Fin.ext hi1
  subst hs
  rw [Cert.KernelIdeal.BodyValue.pay0_apply]
  exact Cert.GinSpec.mlpRelu_congr_rows xb aggb X AGG waB baB wbB bbB p r
    (fun k => hx (ix2 p k) (ix2 r k) hi0 rfl) (fun k => hagg (ix2 p k) (ix2 r k) hi0 rfl) s

/-- WHAT POINT `t` WRITES BACK is block `t` of the layer of the entry arrays. -/
theorem flushed_eq (c : Dev nD) (t : Fin cfg0.N) :
    (dat0 V c).flushed 6 t = ((cfg0.win 6).blk t).view.read (Elt Ideal)
      (Cert.GinSpec.layerRelu (V c main_arg0) (V c main_v13) (V c main_arg3) (V c main_arg4) (V c main_arg5) (V c main_arg6)) := by
  obtain ⟨-, -, -, -, -, -, -, -, -, -, e0, e1, -⟩ := idx_facts t
  show (cfg0.win 6).cut (grid0.coords t) ((dat0 V c).after 6 t) = _
  rw [after0_6]
  unfold out0_6
  rw [View.canon_unit_zero hz2]
  simp only [View.ld_unit_zero (S := S5000x128) hz2, View.ld_unit_zero (S := S128x128) hz2, View.ld_unit_zero (S := S128) hz1]
  funext j
  rw [View.read_apply]
  exact block_value (V c main_arg0) (V c main_v13) (V c main_arg3) (V c main_arg4) (V c main_arg5) (V c main_arg6)
    (iblk0 V c 0 t) (iblk0 V c 1 t) (iblk0 V c 2 t) (iblk0 V c 3 t) (iblk0 V c 4 t) (iblk0 V c 5 t) t.val
    (fun y i h0 h1 => blk_x V c t y i h0 h1) (fun y i h0 h1 => blk_agg V c t y i h0 h1)
    (blk_Wa V c t) (blk_ba V c t) (blk_Wb V c t) (blk_bb V c t) j (((cfg0.win 6).blk t).view.emb j)
    (by show win0_6.index t (0 : Fin 2) * 5000 + 1 * (j 0).val = t.val * 5000 + (j 0).val; rw [e0]; omega)
    (by show win0_6.index t (1 : Fin 2) * 128 + 1 * (j 1).val = (j 1).val; rw [e1]; omega)

/-! ## The twenty blocks tile the rows -/

/-- An index of the result array is in point `t`'s block iff each coordinate is in the block's range on its axis. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v14).slice (win0_6.rect t)).set ↔ _
  rw [View.set_slice_whole, Rect.mem_set_unit]
  exact Iff.rfl

/-- Row r lies in the block of point r / 5000. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, -, -, -, -, -, -, e0, e1, -⟩ := idx_facts t
  have ht : t.val = (i 0).val / 5000 := rfl
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; rw [e0, ht]; omega
  | ⟨1, _⟩ => show win0_6.index t (1 : Fin 2) * 128 ≤ (i 1).val ∧ (i 1).val < win0_6.index t (1 : Fin 2) * 128 + 128; rw [e1]; omega

/-- THE RESULT ARRAY after the call: the layer of the arrays the call is entered with. -/
theorem result_eq (c : Dev nD) :
    (dat0 V c).arrAt 6 cfg0.N
      = Cert.GinSpec.layerRelu (V c main_arg0) (V c main_v13) (V c main_arg3) (V c main_arg4) (V c main_arg5) (V c main_arg6) :=
  (dat0 V c).arrAt_eq_of_cover 6 _ (fun t _ => flushed_eq V c t) cover

end Cert.KernelIdeal.RegionValue0

end
-- ==== Proof.RegionValue1.lean ====
/-
  What pallas_call 1 leaves in its result array: one GIN layer's perceptron of the arrays it is entered with.

  The call's grid has twenty points. Point t stages rows 5000·t … 5000·t + 4999 of the features and of the neighbour
  sums, the two weight matrices and bias vectors whole, and writes back rows 5000·t … 5000·t + 4999 of the result. A
  stored entry depends on its own row of the two staged blocks only, so block t of the result is block t of the layer's
  whole-array function of the entry arrays; the twenty blocks tile the 100000 rows, so the array ends holding that
  function. Stated at arbitrary entry contents, which the run supplies.
-/
import proofs.«130487_j22316650070138_1_alg».proof.Proof.Gen.KernelIdeal.Frame
import proofs.«130487_j22316650070138_1_alg».proof.Proof.BodyValue
import Idealize.ShloMosaic.Lib.Pipeline.Value

set_option maxRecDepth 16384

noncomputable section

namespace Cert.KernelIdeal.RegionValue1

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: the three row-blocked windows sit at block (t, 0), the four whole
    operands at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 ∧ t.val ≤ 19 :=
  (by decide +kernel : ∀ t : Fin grid1.N, _)

/-! ## The staged blocks, read off the entry arrays -/

/-- The feature block at point `t` is rows 5000·t … of the feature array. -/
theorem blk_x (c : Dev nD) (t : Fin cfg1.N) (y : S5000x128.Idx) (i : S100000x128.Idx)
    (h0 : (i 0).val = t.val * 5000 + (y 0).val) (h1 : (i 1).val = (y 1).val) :
    (iblk1 V c 0 t : Vec Ideal S5000x128 .f32) y = (V c main_v14 : S100000x128.Idx → Elt Ideal .f32) i := by
  obtain ⟨e0, e1, -⟩ := idx_facts t
  unfold iblk1
  rw [View.read_apply]
  show V c main_v14 _ = V c main_v14 i
  refine congrArg (V c main_v14) (funext fun a => Fin.ext ?_)
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- The neighbour-sum block at point `t` is rows 5000·t … of the neighbour-sum array. -/
theorem blk_agg (c : Dev nD) (t : Fin cfg1.N) (y : S5000x128.Idx) (i : S100000x128.Idx)
    (h0 : (i 0).val = t.val * 5000 + (y 0).val) (h1 : (i 1).val = (y 1).val) :
    (iblk1 V c 1 t : Vec Ideal S5000x128 .f32) y = (V c main_v24 : S100000x128.Idx → Elt Ideal .f32) i := by
  obtain ⟨-, -, e0, e1, -⟩ := idx_facts t
  unfold iblk1
  rw [View.read_apply]
  show V c main_v24 _ = V c main_v24 i
  refine congrArg (V c main_v24) (funext fun a => Fin.ext ?_)
  match a with
  | ⟨0, _⟩ => show win1_1.index t (0 : Fin 2) * 5000 + 1 * (y 0).val = (i 0).val; rw [e0, h0]; omega
  | ⟨1, _⟩ => show win1_1.index t (1 : Fin 2) * 128 + 1 * (y 1).val = (i 1).val; rw [e1, h1]; omega

/-- The first weight matrix is staged whole. -/
theorem blk_Wa (c : Dev nD) (t : Fin cfg1.N) :
    (iblk1 V c 2 t : Vec Ideal S128x128 .f32) = (V c main_arg7 : S128x128.Idx → Elt Ideal .f32) := by
  obtain ⟨-, -, -, -, e0, e1, -⟩ := idx_facts t
  unfold iblk1
  funext y
  rw [View.read_apply]
  show V c main_arg7 _ = V c main_arg7 y
  refine congrArg (V c main_arg7) (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The first bias vector is staged whole. -/
theorem blk_ba (c : Dev nD) (t : Fin cfg1.N) :
    (iblk1 V c 3 t : Vec Ideal S128 .f32) = (V c main_arg8 : S128.Idx → Elt Ideal .f32) := by
  obtain ⟨-, -, -, -, -, -, e0, -⟩ := idx_facts t
  unfold iblk1
  funext y
  rw [View.read_apply]
  show V c main_arg8 _ = V c main_arg8 y
  refine congrArg (V c main_arg8) (funext fun a => Fin.ext ?_)
  match a with
  | ⟨0, _⟩ => show win1_3.index t (0 : Fin 1) * 128 + 1 * (y 0).val = (y 0).val; rw [e0]; omega

/-- The second weight matrix is staged whole. -/
theorem blk_Wb (c : Dev nD) (t : Fin cfg1.N) :
    (iblk1 V c 4 t : Vec Ideal S128x128 .f32) = (V c main_arg9 : S128x128.Idx → Elt Ideal .f32) := by
  obtain ⟨-, -, -, -, -, -, -, e0, e1, -⟩ := idx_facts t
  unfold iblk1
  funext y
  rw [View.read_apply]
  show V c main_arg9 _ = V c main_arg9 y
  refine congrArg (V c main_arg9) (funext fun a => Fin.ext ?_)
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- The second bias vector is staged whole. -/
theorem blk_bb (c : Dev nD) (t : Fin cfg1.N) :
    (iblk1 V c 5 t : Vec Ideal S128 .f32) = (V c main_arg10 : S128.Idx → Elt Ideal .f32) := by
  obtain ⟨-, -, -, -, -, -, -, -, -, e0, -⟩ := idx_facts t
  unfold iblk1
  funext y
  rw [View.read_apply]
  show V c main_arg10 _ = V c main_arg10 y
  refine congrArg (V c main_arg10) (funext fun a => Fin.ext ?_)
  match a with
  | ⟨0, _⟩ => show win1_5.index t (0 : Fin 1) * 128 + 1 * (y 0).val = (y 0).val; rw [e0]; omega

/-! ## One stored block is a block of the layer's whole-array function -/

/-- Over plain arrays: a stored entry of the block whose rows are rows `5000·tv …` of the arrays is the layer at the
    corresponding entry of the arrays (the entry reads its own row only). -/
theorem block_value (X AGG : FVec Ideal ⟨2, ![100000, 128]⟩ .f32) (Wa : FVec Ideal ⟨2, ![128, 128]⟩ .f32)
    (ba : FVec Ideal ⟨1, ![128]⟩ .f32) (Wb : FVec Ideal ⟨2, ![128, 128]⟩ .f32) (bb : FVec Ideal ⟨1, ![128]⟩ .f32)
    (xb aggb : Vec Ideal S5000x128 .f32) (waB : Vec Ideal S128x128 .f32) (baB : Vec Ideal S128 .f32)
    (wbB : Vec Ideal S128x128 .f32) (bbB : Vec Ideal S128 .f32) (tv : Nat)
    (hx : ∀ (y : S5000x128.Idx) (i : S100000x128.Idx), (i 0).val = tv * 5000 + (y 0).val → (i 1).val = (y 1).val → xb y = X i)
    (hagg : ∀ (y : S5000x128.Idx) (i : S100000x128.Idx), (i 0).val = tv * 5000 + (y 0).val → (i 1).val = (y 1).val → aggb y = AGG i)
    (hWa : waB = Wa) (hba : baB = ba) (hWb : wbB = Wb) (hbb : bbB = bb)
    (j : S5000x128.Idx) (i : S100000x128.Idx) (hi0 : (i 0).val = tv * 5000 + (j 0).val) (hi1 : (i 1).val = (j 1).val) :
    k1_pay1 (F := Ideal) aggb xb waB baB wbB bbB j = Cert.GinSpec.layer X AGG Wa ba Wb bb i := by
  subst hWa hba hWb hbb
  obtain ⟨p, q, rfl⟩ : ∃ (p : Fin 5000) (q : Fin 128), j = ix2 p q := ⟨j 0, j 1, eq_ix2 j⟩
  obtain ⟨r, s, rfl⟩ : ∃ (r : Fin 100000) (s : Fin 128), i = ix2 r s := ⟨i 0, i 1, eq_ix2 i⟩
  have hs : s = q := Fin.ext hi1
  subst hs
  rw [Cert.KernelIdeal.BodyValue.pay1_apply]
  exact Cert.GinSpec.mlp_congr_rows xb aggb X AGG waB baB wbB bbB p r
    (fun k => hx (ix2 p k) (ix2 r k) hi0 rfl) (fun k => hagg (ix2 p k) (ix2 r k) hi0 rfl) s

/-- WHAT POINT `t` WRITES BACK is block `t` of the layer of the entry arrays. -/
theorem flushed_eq (c : Dev nD) (t : Fin cfg1.N) :
    (dat1 V c).flushed 6 t = ((cfg1.win 6).blk t).view.read (Elt Ideal)
      (Cert.GinSpec.layer (V c main_v14) (V c main_v24) (V c main_arg7) (V c main_arg8) (V c main_arg9) (V c main_arg10)) := by
  obtain ⟨-, -, -, -, -, -, -, -, -, -, e0, e1, -⟩ := idx_facts t
  show (cfg1.win 6).cut (grid1.coords t) ((dat1 V c).after 6 t) = _
  rw [after1_6]
  unfold out1_6
  rw [View.canon_unit_zero hz2]
  simp only [View.ld_unit_zero (S := S5000x128) hz2, View.ld_unit_zero (S := S128x128) hz2, View.ld_unit_zero (S := S128) hz1]
  funext j
  rw [View.read_apply]
  exact block_value (V c main_v14) (V c main_v24) (V c main_arg7) (V c main_arg8) (V c main_arg9) (V c main_arg10)
    (iblk1 V c 0 t) (iblk1 V c 1 t) (iblk1 V c 2 t) (iblk1 V c 3 t) (iblk1 V c 4 t) (iblk1 V c 5 t) t.val
    (fun y i h0 h1 => blk_x V c t y i h0 h1) (fun y i h0 h1 => blk_agg V c t y i h0 h1)
    (blk_Wa V c t) (blk_ba V c t) (blk_Wb V c t) (blk_bb V c t) j (((cfg1.win 6).blk t).view.emb j)
    (by show win1_6.index t (0 : Fin 2) * 5000 + 1 * (j 0).val = t.val * 5000 + (j 0).val; rw [e0]; omega)
    (by show win1_6.index t (1 : Fin 2) * 128 + 1 * (j 1).val = (j 1).val; rw [e1]; omega)

/-! ## The twenty blocks tile the rows -/

/-- An index of the result array is in point `t`'s block iff each coordinate is in the block's range on its axis. -/
theorem mem_blk (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v25).slice (win1_6.rect t)).set ↔ _
  rw [View.set_slice_whole, Rect.mem_set_unit]
  exact Iff.rfl

/-- Row r lies in the block of point r / 5000. -/
theorem cover (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨-, -, -, -, -, -, -, -, -, -, e0, e1, -⟩ := idx_facts t
  have ht : t.val = (i 0).val / 5000 := rfl
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; rw [e0, ht]; omega
  | ⟨1, _⟩ => show win1_6.index t (1 : Fin 2) * 128 ≤ (i 1).val ∧ (i 1).val < win1_6.index t (1 : Fin 2) * 128 + 128; rw [e1]; omega

/-- THE RESULT ARRAY after the call: the layer of the arrays the call is entered with. -/
theorem result_eq (c : Dev nD) :
    (dat1 V c).arrAt 6 cfg1.N
      = Cert.GinSpec.layer (V c main_v14) (V c main_v24) (V c main_arg7) (V c main_arg8) (V c main_arg9) (V c main_arg10) :=
  (dat1 V c).arrAt_eq_of_cover 6 _ (fun t _ => flushed_eq V c t) cover

end Cert.KernelIdeal.RegionValue1

end
-- ==== Proof.HostChains.lean ====
/-
  The host-side stretches the kernel's program and the reference share, each named as ONE function.

  `neighbourSum x src dst`: every edge (src[e], dst[e]) adds row src[e] of `x` (a negative source index counted from
  the end, as the gather reads it) into row dst[e] of a zero array: the sum of a node's in-neighbours' features.
  `pooledHead h batch Wlin blin`: the rows of `h` summed per graph, divided by the graph's node count (at least one),
  times the read-out matrix plus its bias. The certificate never opens either: both programs apply them to values it
  proves equal.
-/
import proofs.«130487_j22316650070138_1_alg».proof.Proof.Gen.KernelIdeal

noncomputable section

namespace Cert.KernelIdeal.HostChains

open Cert.KernelIdeal Cert.KernelIdeal.Gen Idealize.ShloMosaic

variable {F : FTy → Type} [FloatOps F]

/-- Row 0 of the edge list: the edges' source nodes. -/
def srcOf (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000

/-- Row 1 of the edge list: the edges' destination nodes. -/
def dstOf (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000

/-- The sum over a node's incoming edges of the source nodes' feature rows. -/
def neighbourSum (x : (⟨S100000x128, .f32⟩ : BufTy).Contents (Elt F)) (src dst : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The per-graph mean of the node rows, read out through the last linear map. -/
def pooledHead (h : (⟨S100000x128, .f32⟩ : BufTy).Contents (Elt F)) (batch : (⟨S100000, .i32⟩ : BufTy).Contents (Elt F))
    (Wlin : (⟨S128x6, .f32⟩ : BufTy).Contents (Elt F)) (blin : (⟨S6, .f32⟩ : BufTy).Contents (Elt F)) :
    (⟨S1000x6, .f32⟩ : BufTy).Contents (Elt F) :=
  addf
    (Host.dotGeneral dot_S1000x128_S128x6_S1000x6_1_0_0_1_n_n none
      (Host.divf
        (Host.scatterAdd scatter_S1000x128_S100000x1_S100000x128_1_0_0_1
          (broadcastInDim S1000x128 ![] bcast_S_S1000x128 (constant S_ .f32 0x00000000#32))
          (broadcastInDim S100000x1 ![0] bcast_S100000_S100000x1_0 batch) h)
        (broadcastInDim S1000x128 ![0, 1] bcast_S1000x1_S1000x128_0_1
          (maximumf
            (Host.scatterAdd scatter_S1000x1_S100000x1_S100000x1_1_0_0_1
              (broadcastInDim S1000x1 ![] bcast_S_S1000x1 (constant S_ .f32 0x00000000#32))
              (broadcastInDim S100000x1 ![0] bcast_S100000_S100000x1_0 batch)
              (broadcastInDim S100000x1 ![] bcast_S_S100000x1 (constant S_ .f32 0x3F800000#32)))
            (broadcastInDim S1000x1 ![] bcast_S_S1000x1 (constant S_ .f32 0x3F800000#32)))))
      Wlin)
    (broadcastInDim S1000x6 ![0, 1] bcast_S1x6_S1000x6_0_1 (broadcastInDim S1x6 ![1] bcast_S6_S1x6_1 blin))

end Cert.KernelIdeal.HostChains

end
-- ==== Proof.GinNet.lean ====
/-
  The whole network as one function of the thirteen arguments, on the extended reals.

  First layer: the rectified perceptron of each node's features plus its in-neighbours' sum. Second layer: the perceptron
  (no outer rectifier) of the first layer's output plus ITS in-neighbours' sum over the same edges. Result: the per-graph
  mean of the second layer's rows through the read-out map.
-/
import proofs.«130487_j22316650070138_1_alg».proof.Proof.GinSpec
import proofs.«130487_j22316650070138_1_alg».proof.Proof.HostChains

noncomputable section

namespace Cert.GinNet

open Cert.KernelIdeal Cert.KernelIdeal.HostChains Idealize.ShloMosaic

/-- The first layer's output for every node. -/
def hidden1 (x : (⟨S100000x128, .f32⟩ : BufTy).Contents (Elt Ideal)) (ei : (⟨S2x1600000, .i32⟩ : BufTy).Contents (Elt Ideal))
    (W1a : (⟨S128x128, .f32⟩ : BufTy).Contents (Elt Ideal)) (b1a : (⟨S128, .f32⟩ : BufTy).Contents (Elt Ideal))
    (W1b : (⟨S128x128, .f32⟩ : BufTy).Contents (Elt Ideal)) (b1b : (⟨S128, .f32⟩ : BufTy).Contents (Elt Ideal)) :
    (⟨S100000x128, .f32⟩ : BufTy).Contents (Elt Ideal) :=
  Cert.GinSpec.layerRelu x (neighbourSum x (srcOf ei) (dstOf ei)) W1a b1a W1b b1b

/-- The second layer's output for every node, from the first layer's. -/
def hidden2 (h1 : (⟨S100000x128, .f32⟩ : BufTy).Contents (Elt Ideal)) (ei : (⟨S2x1600000, .i32⟩ : BufTy).Contents (Elt Ideal))
    (W2a : (⟨S128x128, .f32⟩ : BufTy).Contents (Elt Ideal)) (b2a : (⟨S128, .f32⟩ : BufTy).Contents (Elt Ideal))
    (W2b : (⟨S128x128, .f32⟩ : BufTy).Contents (Elt Ideal)) (b2b : (⟨S128, .f32⟩ : BufTy).Contents (Elt Ideal)) :
    (⟨S100000x128, .f32⟩ : BufTy).Contents (Elt Ideal) :=
  Cert.GinSpec.layer h1 (neighbourSum h1 (srcOf ei) (dstOf ei)) W2a b2a W2b b2b

/-- The network's result: one row of six numbers per graph. -/
def out (x : (⟨S100000x128, .f32⟩ : BufTy).Contents (Elt Ideal)) (ei : (⟨S2x1600000, .i32⟩ : BufTy).Contents (Elt Ideal))
    (batch : (⟨S100000, .i32⟩ : BufTy).Contents (Elt Ideal))
    (W1a : (⟨S128x128, .f32⟩ : BufTy).Contents (Elt Ideal)) (b1a : (⟨S128, .f32⟩ : BufTy).Contents (Elt Ideal))
    (W1b : (⟨S128x128, .f32⟩ : BufTy).Contents (Elt Ideal)) (b1b : (⟨S128, .f32⟩ : BufTy).Contents (Elt Ideal))
    (W2a : (⟨S128x128, .f32⟩ : BufTy).Contents (Elt Ideal)) (b2a : (⟨S128, .f32⟩ : BufTy).Contents (Elt Ideal))
    (W2b : (⟨S128x128, .f32⟩ : BufTy).Contents (Elt Ideal)) (b2b : (⟨S128, .f32⟩ : BufTy).Contents (Elt Ideal))
    (Wlin : (⟨S128x6, .f32⟩ : BufTy).Contents (Elt Ideal)) (blin : (⟨S6, .f32⟩ : BufTy).Contents (Elt Ideal)) :
    (⟨S1000x6, .f32⟩ : BufTy).Contents (Elt Ideal) :=
  pooledHead (hidden2 (hidden1 x ei W1a b1a W1b b1b) ei W2a b2a W2b b2b) batch Wlin blin

end Cert.GinNet

end
-- ==== Proof.KernelValue.lean ====
/-
  The kernel program's result as a function of its arguments, on the extended reals.

  Between the launch and the return the buffers pass five boundaries: the first host stretch (the edge list split, the
  first neighbour sum), pallas_call 0 (the first layer), the second host stretch (the second neighbour sum, of the first
  layer's output), pallas_call 1 (the second layer), the last host stretch (the per-graph mean and the read-out). Each
  boundary's contents are read back to the launch memory: a host stretch by its operations' functions, a call by its
  result array (the layer of its entry arrays) and every other buffer untouched.
-/
import proofs.«130487_j22316650070138_1_alg».proof.Proof.Gen.KernelIdeal.Frame
import proofs.«130487_j22316650070138_1_alg».proof.Proof.RegionValue0
import proofs.«130487_j22316650070138_1_alg».proof.Proof.RegionValue1
import proofs.«130487_j22316650070138_1_alg».proof.Proof.HostChains
import proofs.«130487_j22316650070138_1_alg».proof.Proof.GinNet
import Idealize.ShloMosaic.Lib.StableHlo.Run

set_option maxRecDepth 16384

noncomputable section

namespace Cert.KernelIdeal.KernelValue

open Cert.KernelIdeal Cert.KernelIdeal.Gen Cert.KernelIdeal.HostChains Idealize.ShloMosaic Idealize.ShloMosaic.TcCoe
open Idealize.SL.Sem Idealize.ShloMosaic.StableHlo

variable (m : (ℓ : Loc nD τ sig) → Buf (Elt Ideal) ℓ) (ρ : Dev nD → PrngReg)

/-! ## After the first host stretch -/

theorem W1_x (c : Dev nD) : W1 m ρ c (Proc.devRef .tc main_arg0) = m ((c : Thread nD τ).loc main_arg0) := by
  show StableHlo.after hostOps0 (W0 m ρ c) (Proc.devRef .tc main_arg0) = _
  after_results <;> rfl

theorem W1_src (c : Dev nD) : W1 m ρ c (Proc.devRef .tc main_v1) = srcOf (m ((c : Thread nD τ).loc main_arg1)) := by
  show StableHlo.after hostOps0 (W0 m ρ c) (Proc.devRef .tc main_v1) = _
  after_results <;> rfl

theorem W1_dst (c : Dev nD) : W1 m ρ c (Proc.devRef .tc main_v3) = dstOf (m ((c : Thread nD τ).loc main_arg1)) := by
  show StableHlo.after hostOps0 (W0 m ρ c) (Proc.devRef .tc main_v3) = _
  after_results <;> rfl

theorem W1_agg (c : Dev nD) : W1 m ρ c (Proc.devRef .tc main_v13)
    = neighbourSum (m ((c : Thread nD τ).loc main_arg0)) (srcOf (m ((c : Thread nD τ).loc main_arg1))) (dstOf (m ((c : Thread nD τ).loc main_arg1))) := by
  show StableHlo.after hostOps0 (W0 m ρ c) (Proc.devRef .tc main_v13) = _
  after_results <;> rfl

/-- No operation of the first stretch writes an argument: each keeps its launch contents. -/
theorem W1_arg2 (c : Dev nD) : W1 m ρ c (Proc.devRef .tc main_arg2) = m ((c : Thread nD τ).loc main_arg2) := by
  show StableHlo.after hostOps0 (W0 m ρ c) (Proc.devRef .tc main_arg2) = _
  after_results <;> rfl

theorem W1_arg3 (c : Dev nD) : W1 m ρ c (Proc.devRef .tc main_arg3) = m ((c : Thread nD τ).loc main_arg3) := by
  show StableHlo.after hostOps0 (W0 m ρ c) (Proc.devRef .tc main_arg3) = _
  after_results <;> rfl

theorem W1_arg4 (c : Dev nD) : W1 m ρ c (Proc.devRef .tc main_arg4) = m ((c : Thread nD τ).loc main_arg4) := by
  show StableHlo.after hostOps0 (W0 m ρ c) (Proc.devRef .tc main_arg4) = _
  after_results <;> rfl

theorem W1_arg5 (c : Dev nD) : W1 m ρ c (Proc.devRef .tc main_arg5) = m ((c : Thread nD τ).loc main_arg5) := by
  show StableHlo.after hostOps0 (W0 m ρ c) (Proc.devRef .tc main_arg5) = _
  after_results <;> rfl

theorem W1_arg6 (c : Dev nD) : W1 m ρ c (Proc.devRef .tc main_arg6) = m ((c : Thread nD τ).loc main_arg6) := by
  show StableHlo.after hostOps0 (W0 m ρ c) (Proc.devRef .tc main_arg6) = _
  after_results <;> rfl

theorem W1_arg7 (c : Dev nD) : W1 m ρ c (Proc.devRef .tc main_arg7) = m ((c : Thread nD τ).loc main_arg7) := by
  show StableHlo.after hostOps0 (W0 m ρ c) (Proc.devRef .tc main_arg7) = _
  after_results <;> rfl

theorem W1_arg8 (c : Dev nD) : W1 m ρ c (Proc.devRef .tc main_arg8) = m ((c : Thread nD τ).loc main_arg8) := by
  show StableHlo.after hostOps0 (W0 m ρ c) (Proc.devRef .tc main_arg8) = _
  after_results <;> rfl

theorem W1_arg9 (c : Dev nD) : W1 m ρ c (Proc.devRef .tc main_arg9) = m ((c : Thread nD τ).loc main_arg9) := by
  show StableHlo.after hostOps0 (W0 m ρ c) (Proc.devRef .tc main_arg9) = _
  after_results <;> rfl

theorem W1_arg10 (c : Dev nD) : W1 m ρ c (Proc.devRef .tc main_arg10) = m ((c : Thread nD τ).loc main_arg10) := by
  show StableHlo.after hostOps0 (W0 m ρ c) (Proc.devRef .tc main_arg10) = _
  after_results <;> rfl

theorem W1_arg11 (c : Dev nD) : W1 m ρ c (Proc.devRef .tc main_arg11) = m ((c : Thread nD τ).loc main_arg11) := by
  show StableHlo.after hostOps0 (W0 m ρ c) (Proc.devRef .tc main_arg11) = _
  after_results <;> rfl

theorem W1_arg12 (c : Dev nD) : W1 m ρ c (Proc.devRef .tc main_arg12) = m ((c : Thread nD τ).loc main_arg12) := by
  show StableHlo.after hostOps0 (W0 m ρ c) (Proc.devRef .tc main_arg12) = _
  after_results <;> rfl

/-! ## After pallas_call 0: its result array holds the first layer -/

theorem W2_h1 (c : Dev nD) : W2 m ρ c (Proc.devRef .tc main_v14)
    = Cert.GinNet.hidden1 (m ((c : Thread nD τ).loc main_arg0)) (m ((c : Thread nD τ).loc main_arg1))
        (m ((c : Thread nD τ).loc main_arg3)) (m ((c : Thread nD τ).loc main_arg4))
        (m ((c : Thread nD τ).loc main_arg5)) (m ((c : Thread nD τ).loc main_arg6)) := by
  refine (W2_arr m ρ c 6).trans ?_
  refine (Cert.KernelIdeal.RegionValue0.result_eq (V1 m ρ) c).trans ?_
  show Cert.GinSpec.layerRelu (W1 m ρ c (Proc.devRef .tc main_arg0)) (W1 m ρ c (Proc.devRef .tc main_v13))
      (W1 m ρ c (Proc.devRef .tc main_arg3)) (W1 m ρ c (Proc.devRef .tc main_arg4))
      (W1 m ρ c (Proc.devRef .tc main_arg5)) (W1 m ρ c (Proc.devRef .tc main_arg6)) = _
  rw [W1_x m ρ c, W1_agg m ρ c, W1_arg3 m ρ c, W1_arg4 m ρ c, W1_arg5 m ρ c, W1_arg6 m ρ c]
  rfl

/-! ## After the second host stretch -/

theorem W3_h1 (c : Dev nD) : W3 m ρ c (Proc.devRef .tc main_v14) = W2 m ρ c (Proc.devRef .tc main_v14) := by
  show StableHlo.after hostOps1 (W2 m ρ c) (Proc.devRef .tc main_v14) = _
  after_results <;> rfl

/-- The second neighbour sum is taken of the first layer's output, over the same edges. -/
theorem W3_agg (c : Dev nD) : W3 m ρ c (Proc.devRef .tc main_v24)
    = neighbourSum (W2 m ρ c (Proc.devRef .tc main_v14)) (srcOf (m ((c : Thread nD τ).loc main_arg1))) (dstOf (m ((c : Thread nD τ).loc main_arg1))) := by
  rw [← W1_src m ρ c, ← W1_dst m ρ c, ← W2_of_ne m ρ c main_v1 (by decide), ← W2_of_ne m ρ c main_v3 (by decide)]
  show StableHlo.after hostOps1 (W2 m ρ c) (Proc.devRef .tc main_v24) = _
  after_results <;> rfl

theorem W3_arg2 (c : Dev nD) : W3 m ρ c (Proc.devRef .tc main_arg2) = m ((c : Thread nD τ).loc main_arg2) := by
  refine Eq.trans ?_ ((W2_of_ne m ρ c main_arg2 (by decide)).trans (W1_arg2 m ρ c))
  show StableHlo.after hostOps1 (W2 m ρ c) (Proc.devRef .tc main_arg2) = _
  after_results <;> rfl

theorem W3_arg7 (c : Dev nD) : W3 m ρ c (Proc.devRef .tc main_arg7) = m ((c : Thread nD τ).loc main_arg7) := by
  refine Eq.trans ?_ ((W2_of_ne m ρ c main_arg7 (by decide)).trans (W1_arg7 m ρ c))
  show StableHlo.after hostOps1 (W2 m ρ c) (Proc.devRef .tc main_arg7) = _
  after_results <;> rfl

theorem W3_arg8 (c : Dev nD) : W3 m ρ c (Proc.devRef .tc main_arg8) = m ((c : Thread nD τ).loc main_arg8) := by
  refine Eq.trans ?_ ((W2_of_ne m ρ c main_arg8 (by decide)).trans (W1_arg8 m ρ c))
  show StableHlo.after hostOps1 (W2 m ρ c) (Proc.devRef .tc main_arg8) = _
  after_results <;> rfl

theorem W3_arg9 (c : Dev nD) : W3 m ρ c (Proc.devRef .tc main_arg9) = m ((c : Thread nD τ).loc main_arg9) := by
  refine Eq.trans ?_ ((W2_of_ne m ρ c main_arg9 (by decide)).trans (W1_arg9 m ρ c))
  show StableHlo.after hostOps1 (W2 m ρ c) (Proc.devRef .tc main_arg9) = _
  after_results <;> rfl

theorem W3_arg10 (c : Dev nD) : W3 m ρ c (Proc.devRef .tc main_arg10) = m ((c : Thread nD τ).loc main_arg10) := by
  refine Eq.trans ?_ ((W2_of_ne m ρ c main_arg10 (by decide)).trans (W1_arg10 m ρ c))
  show StableHlo.after hostOps1 (W2 m ρ c) (Proc.devRef .tc main_arg10) = _
  after_results <;> rfl

theorem W3_arg11 (c : Dev nD) : W3 m ρ c (Proc.devRef .tc main_arg11) = m ((c : Thread nD τ).loc main_arg11) := by
  refine Eq.trans ?_ ((W2_of_ne m ρ c main_arg11 (by decide)).trans (W1_arg11 m ρ c))
  show StableHlo.after hostOps1 (W2 m ρ c) (Proc.devRef .tc main_arg11) = _
  after_results <;> rfl

theorem W3_arg12 (c : Dev nD) : W3 m ρ c (Proc.devRef .tc main_arg12) = m ((c : Thread nD τ).loc main_arg12) := by
  refine Eq.trans ?_ ((W2_of_ne m ρ c main_arg12 (by decide)).trans (W1_arg12 m ρ c))
  show StableHlo.after hostOps1 (W2 m ρ c) (Proc.devRef .tc main_arg12) = _
  after_results <;> rfl

/-! ## After pallas_call 1: its result array holds the second layer -/

theorem W4_h2 (c : Dev nD) : W4 m ρ c (Proc.devRef .tc main_v25)
    = Cert.GinNet.hidden2 (W2 m ρ c (Proc.devRef .tc main_v14)) (m ((c : Thread nD τ).loc main_arg1))
        (m ((c : Thread nD τ).loc main_arg7)) (m ((c : Thread nD τ).loc main_arg8))
        (m ((c : Thread nD τ).loc main_arg9)) (m ((c : Thread nD τ).loc main_arg10)) := by
  refine (W4_arr m ρ c 6).trans ?_
  refine (Cert.KernelIdeal.RegionValue1.result_eq (V3 m ρ) c).trans ?_
  show Cert.GinSpec.layer (W3 m ρ c (Proc.devRef .tc main_v14)) (W3 m ρ c (Proc.devRef .tc main_v24))
      (W3 m ρ c (Proc.devRef .tc main_arg7)) (W3 m ρ c (Proc.devRef .tc main_arg8))
      (W3 m ρ c (Proc.devRef .tc main_arg9)) (W3 m ρ c (Proc.devRef .tc main_arg10)) = _
  rw [W3_h1 m ρ c, W3_agg m ρ c, W3_arg7 m ρ c, W3_arg8 m ρ c, W3_arg9 m ρ c, W3_arg10 m ρ c]
  rfl

theorem W4_arg2 (c : Dev nD) : W4 m ρ c (Proc.devRef .tc main_arg2) = m ((c : Thread nD τ).loc main_arg2) :=
  (W4_of_ne m ρ c main_arg2 (by decide)).trans (W3_arg2 m ρ c)

theorem W4_arg11 (c : Dev nD) : W4 m ρ c (Proc.devRef .tc main_arg11) = m ((c : Thread nD τ).loc main_arg11) :=
  (W4_of_ne m ρ c main_arg11 (by decide)).trans (W3_arg11 m ρ c)

theorem W4_arg12 (c : Dev nD) : W4 m ρ c (Proc.devRef .tc main_arg12) = m ((c : Thread nD τ).loc main_arg12) :=
  (W4_of_ne m ρ c main_arg12 (by decide)).trans (W3_arg12 m ρ c)

/-! ## After the last host stretch: the result -/

theorem W5_out (c : Dev nD) : W5 m ρ c (Proc.devRef .tc main_v40)
    = pooledHead (W4 m ρ c (Proc.devRef .tc main_v25)) (W4 m ρ c (Proc.devRef .tc main_arg2))
        (W4 m ρ c (Proc.devRef .tc main_arg11)) (W4 m ρ c (Proc.devRef .tc main_arg12)) := by
  show StableHlo.after hostOps2 (W4 m ρ c) (Proc.devRef .tc main_v40) = _
  after_results_simp
  rfl

/-- THE KERNEL PROGRAM'S RESULT: the network's function of the launch contents of the thirteen arguments. -/
theorem result_eq (c : Dev nD) : W5 m ρ c (Proc.devRef .tc main_v40)
    = Cert.GinNet.out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) := by
  rw [W5_out m ρ c, W4_h2 m ρ c, W2_h1 m ρ c, W4_arg2 m ρ c, W4_arg11 m ρ c, W4_arg12 m ρ c]
  rfl

end Cert.KernelIdeal.KernelValue

end
-- ==== Proof.ReferenceValue.lean ====
/-
  The reference program's result as the same function of its arguments, on the extended reals.

  The reference computes each layer on the whole 100000×128 array with the host's operations: the neighbour sum plus
  the features, a product with the first weight matrix plus its bias row, the rectifier, a product with the second
  weight matrix plus its bias row (and the rectifier once more after the first layer). Read at entry (r, q) that is
  the layer's perceptron at row r, column q. The neighbour sums and the pooled read-out are the kernel program's own
  host stretches, term for term.
-/
import proofs.«130487_j22316650070138_1_alg».proof.Proof.Gen.ReferenceIdeal.Read
import proofs.«130487_j22316650070138_1_alg».proof.Proof.GinSpec
import proofs.«130487_j22316650070138_1_alg».proof.Proof.LibPlainDot
import proofs.«130487_j22316650070138_1_alg».proof.Proof.LibRowBias
import proofs.«130487_j22316650070138_1_alg».proof.Proof.HostChains
import proofs.«130487_j22316650070138_1_alg».proof.Proof.GinNet

noncomputable section

open scoped BigOperators

namespace Cert.ReferenceIdeal.RefValue

open Cert.ReferenceIdeal Cert.ReferenceIdeal.Gen Cert.ReferenceIdeal.Read Idealize.ShloMosaic Idealize.ShloMosaic.ValueIdx

/-- The printed dimension numbers of the reference's layer products are those of a plain 100000×128 by 128×128 product. -/
theorem dot_eq_plain : dot_S100000x128_S128x128_S100000x128_1_0_0_1_n_n = DotDims.plain 100000 128 128 := rfl

/-- One affine map of the reference at an entry: the host's product plus the bias vector broadcast down the rows. -/
theorem dense_apply (h : FVec Ideal S100000x128 .f32) (W : FVec Ideal S128x128 .f32) (b : FVec Ideal S128 .f32)
    (r : Fin 100000) (q : Fin 128) :
    addf (Host.dotGeneral dot_S100000x128_S128x128_S100000x128_1_0_0_1_n_n none h W)
        (broadcastInDim S100000x128 ![0, 1] bcast_S1x128_S100000x128_0_1 (broadcastInDim S1x128 ![1] bcast_S128_S1x128_1 b)) (ix2 r q)
      = (∑ k : Fin 128, h (ix2 r k) * W (ix2 k q)) + b (ix1 q) := by
  rw [addf_apply, dot_eq_plain]
  show FloatOps.dotGeneral (DotDims.plain 100000 128 128) none .single h W (ix2 r q)
      + broadcastInDim ⟨2, ![100000, 128]⟩ ![0, 1] bcast_S1x128_S100000x128_0_1 (broadcastInDim ⟨2, ![1, 128]⟩ ![1] bcast_S128_S1x128_1 b) (ix2 r q) = _
  rw [Cert.PlainDot.dotGeneral_apply, Cert.RowBias.hostRows_apply]

/-- The rectifier's zero array denotes zero everywhere. -/
theorem zeros_apply (i : S100000x128.Idx) :
    broadcastInDim S100000x128 ![] bcast_S_S100000x128 (constant (F := Ideal) S_ .f32 0x00000000#32) i = 0 := by
  rw [Cert.RowBias.splat_apply]
  exact Ideal.ofBits_zero_f32

/-- A layer without the outer rectifier, as the reference's operations compose it, is the layer's whole-array function. -/
theorem layer_eq (x agg : FVec Ideal S100000x128 .f32) (Wa : FVec Ideal S128x128 .f32) (ba : FVec Ideal S128 .f32)
    (Wb : FVec Ideal S128x128 .f32) (bb : FVec Ideal S128 .f32) :
    addf (Host.dotGeneral dot_S100000x128_S128x128_S100000x128_1_0_0_1_n_n none
          (maximumf
            (addf (Host.dotGeneral dot_S100000x128_S128x128_S100000x128_1_0_0_1_n_n none (addf agg x) Wa)
              (broadcastInDim S100000x128 ![0, 1] bcast_S1x128_S100000x128_0_1 (broadcastInDim S1x128 ![1] bcast_S128_S1x128_1 ba)))
            (broadcastInDim S100000x128 ![] bcast_S_S100000x128 (constant S_ .f32 0x00000000#32)))
          Wb)
        (broadcastInDim S100000x128 ![0, 1] bcast_S1x128_S100000x128_0_1 (broadcastInDim S1x128 ![1] bcast_S128_S1x128_1 bb))
      = Cert.GinSpec.layer x agg Wa ba Wb bb := by
  funext i
  obtain ⟨r, q, rfl⟩ : ∃ (r : Fin 100000) (q : Fin 128), i = ix2 r q := ⟨i 0, i 1, eq_ix2 i⟩
  show _ = Cert.GinSpec.mlp x agg Wa ba Wb bb r q
  unfold Cert.GinSpec.mlp Cert.GinSpec.hidden
  rw [dense_apply]
  refine congrArg (fun s => s + bb (ix1 q)) (Finset.sum_congr rfl fun j _ => ?_)
  rw [maximumf_apply, dense_apply, zeros_apply]
  refine congrArg (fun s => max (s + ba (ix1 j)) 0 * Wb (ix2 j q)) (Finset.sum_congr rfl fun k _ => ?_)
  rw [addf_apply]

/-- The same with the outer rectifier. -/
theorem layerRelu_eq (x agg : FVec Ideal S100000x128 .f32) (Wa : FVec Ideal S128x128 .f32) (ba : FVec Ideal S128 .f32)
    (Wb : FVec Ideal S128x128 .f32) (bb : FVec Ideal S128 .f32) :
    maximumf
        (addf (Host.dotGeneral dot_S100000x128_S128x128_S100000x128_1_0_0_1_n_n none
            (maximumf
              (addf (Host.dotGeneral dot_S100000x128_S128x128_S100000x128_1_0_0_1_n_n none (addf agg x) Wa)
                (broadcastInDim S100000x128 ![0, 1] bcast_S1x128_S100000x128_0_1 (broadcastInDim S1x128 ![1] bcast_S128_S1x128_1 ba)))
              (broadcastInDim S100000x128 ![] bcast_S_S100000x128 (constant S_ .f32 0x00000000#32)))
            Wb)
          (broadcastInDim S100000x128 ![0, 1] bcast_S1x128_S100000x128_0_1 (broadcastInDim S1x128 ![1] bcast_S128_S1x128_1 bb)))
        (broadcastInDim S100000x128 ![] bcast_S_S100000x128 (constant S_ .f32 0x00000000#32))
      = Cert.GinSpec.layerRelu x agg Wa ba Wb bb := by
  rw [layer_eq]
  funext i
  rw [maximumf_apply, zeros_apply]
  rfl

/-! ## The reference's stages, composed -/

open Cert.KernelIdeal.HostChains (neighbourSum srcOf dstOf pooledHead)

/-- The reference's first neighbour sum is the kernel program's first host stretch, term for term. -/
theorem agg1_eq (x0 : (⟨S100000x128, .f32⟩ : BufTy).Contents (Elt Ideal)) (x1 : (⟨S2x1600000, .i32⟩ : BufTy).Contents (Elt Ideal)) :
    val_main_v13 (F := Ideal) x0 x1 = neighbourSum x0 (srcOf x1) (dstOf x1) := rfl

/-- The reference's first layer is the network's. -/
theorem h1_eq (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v26 (F := Ideal) x0 x1 x3 x4 x5 x6 = Cert.GinNet.hidden1 x0 x1 x3 x4 x5 x6 := by
  unfold Cert.GinNet.hidden1
  rw [← agg1_eq, ← layerRelu_eq]
  rfl

/-- The reference's second neighbour sum is the same stretch applied to its first layer. -/
theorem agg2_eq (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v36 (F := Ideal) x0 x1 x3 x4 x5 x6
      = neighbourSum (val_main_v26 (F := Ideal) x0 x1 x3 x4 x5 x6) (srcOf x1) (dstOf x1) := rfl

/-- The reference's second layer is the network's, of its first layer. -/
theorem h2_eq (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    val_main_v47 (F := Ideal) x0 x1 x3 x4 x5 x6 x7 x8 x9 x10
      = Cert.GinNet.hidden2 (val_main_v26 (F := Ideal) x0 x1 x3 x4 x5 x6) x1 x7 x8 x9 x10 := by
  unfold Cert.GinNet.hidden2
  rw [← agg2_eq, ← layer_eq]
  rfl

/-- The reference's pooled read-out is the kernel program's last host stretch, term for term. -/
theorem out_eq (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x6, .f32⟩ : BufTy).Contents (Elt Ideal)) (x12 : (⟨S6, .f32⟩ : BufTy).Contents (Elt Ideal)) :
    val_main_v62 (F := Ideal) x0 x1 x2 x3 x4 x5 x6 x7 x8 x9 x10 x11 x12
      = pooledHead (val_main_v47 (F := Ideal) x0 x1 x3 x4 x5 x6 x7 x8 x9 x10) x2 x11 x12 := rfl

/-- THE REFERENCE'S RESULT: the network's function of the thirteen arguments. -/
theorem result_eq (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x6, .f32⟩ : BufTy).Contents (Elt Ideal)) (x12 : (⟨S6, .f32⟩ : BufTy).Contents (Elt Ideal)) :
    val_main_v62 (F := Ideal) x0 x1 x2 x3 x4 x5 x6 x7 x8 x9 x10 x11 x12
      = Cert.GinNet.out x0 x1 x2 x3 x4 x5 x6 x7 x8 x9 x10 x11 x12 := by
  rw [out_eq, h2_eq, h1_eq]
  rfl

end Cert.ReferenceIdeal.RefValue

end
-- ==== Proof.lean ====
/-
  A two-layer graph isomorphism network with a mean-pool read-out, as a kernel program against its plain reference,
  equal over the extended reals.

  The kernel program computes each neighbour sum on the host, runs each layer's two-layer perceptron as a pallas_call
  over twenty blocks of 5000 node rows (products with operands narrowed to sixteen bits, which on the extended reals is
  the identity, into a zero accumulator), and pools and reads out on the host. The reference does all of it with whole
  arrays on the host. A stored entry of a block depends only on its own row of the staged blocks, so the twenty blocks
  of a call's result are the blocks of ONE whole-array function of the call's entry arrays (RegionValue0, RegionValue1
  over BodyValue and GinSpec); the reference's composed operations read at an entry are the same function
  (ReferenceValue); the neighbour sums and the pooled read-out are the same operations on both sides and are carried
  as named functions, never opened (HostChains). So both programs end with `GinNet.out` of the thirteen arguments
  (KernelValue over the run with the result named, KernelRun; the reference's generated run). No law beyond the
  commutation of a block with its rows is used, so the finiteness of the inputs is never opened. The frames are the
  generated ones; the reference's is its generated run with the result dropped; the ideal pass rewrote nothing.
-/
import proofs.«130487_j22316650070138_1_alg».proof.Defs
import proofs.«130487_j22316650070138_1_alg».proof.Proof.Gen.Kernel
import proofs.«130487_j22316650070138_1_alg».proof.Proof.Gen.Kernel.Skeleton
import proofs.«130487_j22316650070138_1_alg».proof.Proof.Gen.Kernel.Launch
import proofs.«130487_j22316650070138_1_alg».proof.Proof.Gen.Kernel.Points
import proofs.«130487_j22316650070138_1_alg».proof.Proof.Gen.Kernel.Frame
import proofs.«130487_j22316650070138_1_alg».proof.Proof.Gen.KernelIdeal
import proofs.«130487_j22316650070138_1_alg».proof.Proof.Gen.KernelIdeal.Skeleton
import proofs.«130487_j22316650070138_1_alg».proof.Proof.Gen.KernelIdeal.Launch
import proofs.«130487_j22316650070138_1_alg».proof.Proof.Gen.KernelIdeal.Points
import proofs.«130487_j22316650070138_1_alg».proof.Proof.Gen.KernelIdeal.Frame
import proofs.«130487_j22316650070138_1_alg».proof.Proof.Gen.ReferenceIdeal
import proofs.«130487_j22316650070138_1_alg».proof.Proof.Gen.ReferenceIdeal.Run
import proofs.«130487_j22316650070138_1_alg».proof.Proof.Gen.ReferenceIdeal.Read
import proofs.«130487_j22316650070138_1_alg».proof.Proof.Gen.Pre_finite_inputs
import proofs.«130487_j22316650070138_1_alg».proof.Proof.KernelRun
import proofs.«130487_j22316650070138_1_alg».proof.Proof.KernelValue
import proofs.«130487_j22316650070138_1_alg».proof.Proof.ReferenceValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the network's function of the arguments, which agree. -/
theorem algebraic : Cert.algebraic_KernelIdeal_ReferenceIdeal := by
  intro m ρ m' ρ' _ hagree
  refine ⟨fun c => Cert.GinNet.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)),
    ?_, ?_⟩
  · exact (θ_run Cert.KernelIdeal.defs _ _).mono
      (fun r h c => ⟨(h c).1.trans (Cert.KernelIdeal.KernelValue.result_eq m ρ c), (h c).2⟩)
      (Cert.KernelIdeal.Gen.run_named m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10, e11, e12⟩ := hagree c
    rw [(h c).1, Cert.ReferenceIdeal.Read.val_main_v62_eq, Cert.ReferenceIdeal.RefValue.result_eq,
      e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
